-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x784 : Shape := ⟨2, ![64, 784]⟩
abbrev S784x4096 : Shape := ⟨2, ![784, 4096]⟩
abbrev S100x4096 : Shape := ⟨2, ![100, 4096]⟩
abbrev S10x4096 : Shape := ⟨2, ![10, 4096]⟩
abbrev S_ : Shape := ⟨0, ![]⟩

class Facts : Prop where
  bcast_S_S64x784 : S_.BroadcastsInDim S64x784 (![] : Fin 0 → Fin S64x784.rank)
  reducesTo_S64x784_S_d0_1 : S64x784.ReducesTo [0, 1] S_
  h_S_ : 0 < S_.numel
  bcast_S_S784x4096 : S_.BroadcastsInDim S784x4096 (![] : Fin 0 → Fin S784x4096.rank)
  reducesTo_S784x4096_S_d0_1 : S784x4096.ReducesTo [0, 1] S_
  bcast_S_S100x4096 : S_.BroadcastsInDim S100x4096 (![] : Fin 0 → Fin S100x4096.rank)
  reducesTo_S100x4096_S_d0_1 : S100x4096.ReducesTo [0, 1] S_
  bcast_S_S10x4096 : S_.BroadcastsInDim S10x4096 (![] : Fin 0 → Fin S10x4096.rank)
  reducesTo_S10x4096_S_d0_1 : S10x4096.ReducesTo [0, 1] S_

variable [Facts]

def fn_part1 {F : FTy → Type} [FloatOps F] (main_v13 : IVec S_ 1) (main_v16 : IVec S10x4096 1) : IVec S_ 1 :=
  let main_c_5 : IVec S_ 1 := constantI S_ 1 1#1
  let main_v17 : IVec S_ 1 := (fun x v => Host.reduce IntOp.andi x v reducesTo_S10x4096_S_d0_1 h_S_) main_v16 main_c_5
  let main_v18 : IVec S_ 1 := andi main_v13 main_v17
  main_v18

def fn {F : FTy → Type} [FloatOps F] (main_arg0 : FVec F S64x784 .f32) (main_arg1 : FVec F S784x4096 .f32) (main_arg2 : FVec F S100x4096 .f32) (main_arg3 : FVec F S10x4096 .f32) : IVec S_ 1 :=
  let main_v0 : FVec F S64x784 .f32 := Host.absf main_arg0
  let main_cst : FVec F S_ .f32 := constant S_ .f32 0x7F800000#32
  let main_v1 : FVec F S64x784 .f32 := broadcastInDim S64x784 ![] bcast_S_S64x784 main_cst
  let main_v2 : IVec S64x784 1 := cmpf .olt main_v0 main_v1
  let main_c : IVec S_ 1 := constantI S_ 1 1#1
  let main_v3 : IVec S_ 1 := (fun x v => Host.reduce IntOp.andi x v reducesTo_S64x784_S_d0_1 h_S_) main_v2 main_c
  let main_v4 : FVec F S784x4096 .f32 := Host.absf main_arg1
  let main_cst_0 : FVec F S_ .f32 := constant S_ .f32 0x7F800000#32
  let main_v5 : FVec F S784x4096 .f32 := broadcastInDim S784x4096 ![] bcast_S_S784x4096 main_cst_0
  let main_v6 : IVec S784x4096 1 := cmpf .olt main_v4 main_v5
  let main_c_1 : IVec S_ 1 := constantI S_ 1 1#1
  let main_v7 : IVec S_ 1 := (fun x v => Host.reduce IntOp.andi x v reducesTo_S784x4096_S_d0_1 h_S_) main_v6 main_c_1
  let main_v8 : IVec S_ 1 := andi main_v3 main_v7
  let main_v9 : FVec F S100x4096 .f32 := Host.absf main_arg2
  let main_cst_2 : FVec F S_ .f32 := constant S_ .f32 0x7F800000#32
  let main_v10 : FVec F S100x4096 .f32 := broadcastInDim S100x4096 ![] bcast_S_S100x4096 main_cst_2
  let main_v11 : IVec S100x4096 1 := cmpf .olt main_v9 main_v10
  let main_c_3 : IVec S_ 1 := constantI S_ 1 1#1
  let main_v12 : IVec S_ 1 := (fun x v => Host.reduce IntOp.andi x v reducesTo_S100x4096_S_d0_1 h_S_) main_v11 main_c_3
  let main_v13 : IVec S_ 1 := andi main_v8 main_v12
  let main_v14 : FVec F S10x4096 .f32 := Host.absf main_arg3
  let main_cst_4 : FVec F S_ .f32 := constant S_ .f32 0x7F800000#32
  let main_v15 : FVec F S10x4096 .f32 := broadcastInDim S10x4096 ![] bcast_S_S10x4096 main_cst_4
  let main_v16 : IVec S10x4096 1 := cmpf .olt main_v14 main_v15
  fn_part1 (F := F) main_v13 main_v16
-- ==== Kernel.lean ====
abbrev S64x784 : Shape := ⟨2, ![64, 784]⟩
abbrev S784x4096 : Shape := ⟨2, ![784, 4096]⟩
abbrev S100x4096 : Shape := ⟨2, ![100, 4096]⟩
abbrev S10x4096 : Shape := ⟨2, ![10, 4096]⟩
abbrev S_ : Shape := ⟨0, ![]⟩
abbrev S128x4096 : Shape := ⟨2, ![128, 4096]⟩
abbrev S64x4096 : Shape := ⟨2, ![64, 4096]⟩
abbrev S784x512 : Shape := ⟨2, ![784, 512]⟩
abbrev S128x512 : Shape := ⟨2, ![128, 512]⟩
abbrev S64x512 : Shape := ⟨2, ![64, 512]⟩
abbrev S784x128 : Shape := ⟨2, ![784, 128]⟩
abbrev S1x784 : Shape := ⟨2, ![1, 784]⟩
abbrev S784 : Shape := ⟨1, ![784]⟩
abbrev S784x1 : Shape := ⟨2, ![784, 1]⟩
abbrev S512 : Shape := ⟨1, ![512]⟩
abbrev S1x512 : Shape := ⟨2, ![1, 512]⟩
abbrev S4096x10 : Shape := ⟨2, ![4096, 10]⟩
abbrev S64x10 : Shape := ⟨2, ![64, 10]⟩

abbrev nBuf : Space → Nat
  | .hbm => 24
  | .vmem => 7
  | .smem => 0
  | _ => 0

abbrev bufTy : (tb : Table) → Fin (tcTables nBuf tb) → BufTy
  | .hbm, ⟨0, _⟩ => ⟨S64x784, .f32⟩
  | .hbm, ⟨1, _⟩ => ⟨S784x4096, .f32⟩
  | .hbm, ⟨2, _⟩ => ⟨S100x4096, .f32⟩
  | .hbm, ⟨3, _⟩ => ⟨S10x4096, .f32⟩
  | .hbm, ⟨4, _⟩ => ⟨S_, .f32⟩
  | .hbm, ⟨5, _⟩ => ⟨S64x784, .f32⟩
  | .hbm, ⟨6, _⟩ => ⟨S64x784, .f32⟩
  | .hbm, ⟨7, _⟩ => ⟨S64x784, .f32⟩
  | .hbm, ⟨8, _⟩ => ⟨S_, .i32⟩
  | .hbm, ⟨9, _⟩ => ⟨S_, .i32⟩
  | .hbm, ⟨10, _⟩ => ⟨S_, .f32⟩
  | .hbm, ⟨11, _⟩ => ⟨S64x784, .f32⟩
  | .hbm, ⟨12, _⟩ => ⟨S64x784, .f32⟩
  | .hbm, ⟨13, _⟩ => ⟨S_, .f32⟩
  | .hbm, ⟨14, _⟩ => ⟨S64x784, .f32⟩
  | .hbm, ⟨15, _⟩ => ⟨S64x784, .f32⟩
  | .hbm, ⟨16, _⟩ => ⟨S64x784, .i32⟩
  | .hbm, ⟨17, _⟩ => ⟨S_, .i32⟩
  | .hbm, ⟨18, _⟩ => ⟨S_, .f32⟩
  | .hbm, ⟨19, _⟩ => ⟨S128x4096, .f32⟩
  | .hbm, ⟨20, _⟩ => ⟨S128x4096, .bf16⟩
  | .hbm, ⟨21, _⟩ => ⟨S64x4096, .f32⟩
  | .hbm, ⟨22, _⟩ => ⟨S4096x10, .f32⟩
  | .hbm, ⟨23, _⟩ => ⟨S64x10, .f32⟩
  | .local _ .vmem, ⟨0, _⟩ => ⟨S64x784, .i32⟩
  | .local _ .vmem, ⟨1, _⟩ => ⟨S784x512, .f32⟩
  | .local _ .vmem, ⟨2, _⟩ => ⟨S784x512, .f32⟩
  | .local _ .vmem, ⟨3, _⟩ => ⟨S128x512, .bf16⟩
  | .local _ .vmem, ⟨4, _⟩ => ⟨S128x512, .bf16⟩
  | .local _ .vmem, ⟨5, _⟩ => ⟨S64x512, .f32⟩
  | .local _ .vmem, ⟨6, _⟩ => ⟨S64x512, .f32⟩
  | _, _ => ⟨S64x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_c_0 : Ref sig .tc := ⟨.hbm, 9, rfl⟩
abbrev main_call1_v0 : Ref sig .tc := ⟨.hbm, 10, rfl⟩
abbrev main_call1_v1 : Ref sig .tc := ⟨.hbm, 11, rfl⟩
abbrev main_call1_v2 : Ref sig .tc := ⟨.hbm, 12, rfl⟩
abbrev main_call1_v3 : Ref sig .tc := ⟨.hbm, 13, rfl⟩
abbrev main_call1_v4 : Ref sig .tc := ⟨.hbm, 14, rfl⟩
abbrev main_v3 : Ref sig .tc := ⟨.hbm, 15, rfl⟩
abbrev main_v4 : Ref sig .tc := ⟨.hbm, 16, rfl⟩
abbrev main_c_1 : Ref sig .tc := ⟨.hbm, 17, rfl⟩
abbrev main_call2_v0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c64_i32 : BitVec 32 := 64#32
  let v4 : BitVec 32 := Scalar.addi c0_i32 c64_i32
  let c1_i32 : BitVec 32 := 1#32
  ⟨c0_i32, v4, c1_i32⟩
def k0_off1 (k0_t1 : Fin k0_t1_loop.trips) : Fin 2 → Nat :=
  let c0_i32 : BitVec 32 := 0#32
  let c1_i32 : BitVec 32 := 1#32
  let arg5 : BitVec 32 := Scf.iv c0_i32 c1_i32 k0_t1
  let v5 : Index := Scalar.indexCast arg5
  let c0_4 : Index := 0#32
  ![v5.toNat, 0]
def k0_off2 (k0_t1 : Fin k0_t1_loop.trips) : Fin 2 → Nat :=
  let c0_i32 : BitVec 32 := 0#32
  let c1_i32 : BitVec 32 := 1#32
  let arg5 : BitVec 32 := Scf.iv c0_i32 c1_i32 k0_t1
  let v22 : Index := Scalar.indexCast arg5
  let c0_9 : Index := 0#32
  ![v22.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S64x784 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S784x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S64x784 : S_.BroadcastsInDim S64x784 (![] : Fin 0 → Fin S64x784.rank)
  pads_S100x4096_S128x4096_0280_000 : S100x4096.Pads (![0, 0] : Fin 2 → Nat) ![28, 0] ![0, 0] S128x4096
  h_S_ : 0 < S_.numel
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S784x512_S784x512_0_0 : ∀ a, (![0, 0] : Fin 2 → Nat) a + S784x512.size a ≤ S784x512.size a
  h_S784x512 : 0 < S784x512.numel
  iota_S784x128_d1_w32 : S784x128.Iotas .tc 32 [1]
  h_S1x784 : 0 < S1x784.numel
  shapeCasts_S1x784_S784 : S1x784.ShapeCasts S784
  shapeCasts_S784_S784x1 : S784.ShapeCasts S784x1
  broadcasts_S784x1_S784x128 : S784x1.Broadcasts S784x128
  natLt_1_32 : 1 < 32
  reduces_S784x512_S512 : S784x512.Reduces [0] S512
  h_S1x512 : 0 < S1x512.numel
  shapeCasts_S1x512_S512 : S1x512.ShapeCasts S512
  shapeCasts_S512_S1x512 : S512.ShapeCasts S1x512
  transposes_S10x4096_S4096x10_1_0 : S10x4096.Transposes [1, 0] S4096x10
  dot_S784x128_S128x512_S784x512_1_0_0_1_n_n_wf : DotDims.WF S784x128 S128x512 S784x512 [1] [0] [0] [1] [] []
  dot_S64x4096_S4096x10_S64x10_1_0_0_1_n_n_wf : DotDims.WF S64x4096 S4096x10 S64x10 [1] [0] [0] [1] [] []
  hrank0 : 0 < grid0.rank
  k0_t1_ok : k0_t1_loop.OK
  k0_off1_inb : ∀ k0_t1 : Fin k0_t1_loop.trips, ∀ a, (k0_off1 k0_t1) a + S1x784.size a ≤ S64x784.size a
  k0_off2_inb : ∀ k0_t1 : Fin k0_t1_loop.trips, ∀ a, (k0_off2 k0_t1) a + S1x512.size a ≤ S64x512.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x784.size a ≤ S64x784.size a
  hwx0_0 : ∀ i : grid0.Coords, EltTy.bits .i32 = 32 ∨ (Rect.block (s := S64x784) S64x784.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S784x512.size a ≤ S784x4096.size a
  hwx0_1 : ∀ i : grid0.Coords, EltTy.bits .f32 = 32 ∨ (Rect.block (s := S784x4096) S784x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S128x4096.size a
  hwx0_2 : ∀ i : grid0.Coords, EltTy.bits .bf16 = 32 ∨ (Rect.block (s := S128x4096) S128x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x512.size a ≤ S64x4096.size a
  hwx0_3 : ∀ i : grid0.Coords, EltTy.bits .f32 = 32 ∨ (Rect.block (s := S64x4096) S64x512.size (cc0_transform_3 i) (hinb0_3 i)).WholeWords (EltTy.packing .f32)

variable [Facts₀]

def dot_S784x128_S128x512_S784x512_1_0_0_1_n_n : DotDims S784x128 S128x512 S784x512 where
  lhsContracting := [1]
  rhsContracting := [0]
  lhsNonContracting := [0]
  rhsNonContracting := [1]
  lhsBatch := []
  rhsBatch := []
  wf := dot_S784x128_S128x512_S784x512_1_0_0_1_n_n_wf
def dot_S64x4096_S4096x10_S64x10_1_0_0_1_n_n : DotDims S64x4096 S4096x10 S64x10 where
  lhsContracting := [1]
  rhsContracting := [0]
  lhsNonContracting := [0]
  rhsNonContracting := [1]
  lhsBatch := []
  rhsBatch := []
  wf := dot_S64x4096_S4096x10_S64x10_1_0_0_1_n_n_wf

abbrev win0_0 : Pipeline.Window sig grid0 :=
  Pipeline.Window.ofSpec (Memref.whole main_v4) S64x784.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S784x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S128x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S64x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x784 : Shape := ⟨2, ![64, 784]⟩
abbrev S784x4096 : Shape := ⟨2, ![784, 4096]⟩
abbrev S100x4096 : Shape := ⟨2, ![100, 4096]⟩
abbrev S10x4096 : Shape := ⟨2, ![10, 4096]⟩
abbrev S_ : Shape := ⟨0, ![]⟩
abbrev S64x784x1 : Shape := ⟨3, ![64, 784, 1]⟩
abbrev S64x784x4096 : Shape := ⟨3, ![64, 784, 4096]⟩
abbrev S1x784x4096 : Shape := ⟨3, ![1, 784, 4096]⟩
abbrev S64x4096 : Shape := ⟨2, ![64, 4096]⟩
abbrev S4096x10 : Shape := ⟨2, ![4096, 10]⟩
abbrev S64x10 : Shape := ⟨2, ![64, 10]⟩

abbrev nBuf : Space → Nat
  | .hbm => 42
  | .vmem => 0
  | .smem => 0
  | _ => 0

abbrev bufTy : (tb : Table) → Fin (tcTables nBuf tb) → BufTy
  | .hbm, ⟨0, _⟩ => ⟨S64x784, .f32⟩
  | .hbm, ⟨1, _⟩ => ⟨S784x4096, .f32⟩
  | .hbm, ⟨2, _⟩ => ⟨S100x4096, .f32⟩
  | .hbm, ⟨3, _⟩ => ⟨S10x4096, .f32⟩
  | .hbm, ⟨4, _⟩ => ⟨S_, .f32⟩
  | .hbm, ⟨5, _⟩ => ⟨S64x784, .f32⟩
  | .hbm, ⟨6, _⟩ => ⟨S64x784, .f32⟩
  | .hbm, ⟨7, _⟩ => ⟨S64x784, .f32⟩
  | .hbm, ⟨8, _⟩ => ⟨S_, .i32⟩
  | .hbm, ⟨9, _⟩ => ⟨S_, .i32⟩
  | .hbm, ⟨10, _⟩ => ⟨S_, .f32⟩
  | .hbm, ⟨11, _⟩ => ⟨S64x784, .f32⟩
  | .hbm, ⟨12, _⟩ => ⟨S64x784, .f32⟩
  | .hbm, ⟨13, _⟩ => ⟨S_, .f32⟩
  | .hbm, ⟨14, _⟩ => ⟨S64x784, .f32⟩
  | .hbm, ⟨15, _⟩ => ⟨S64x784, .f32⟩
  | .hbm, ⟨16, _⟩ => ⟨S64x784, .i32⟩
  | .hbm, ⟨17, _⟩ => ⟨S_, .i32⟩
  | .hbm, ⟨18, _⟩ => ⟨S64x784, .i32⟩
  | .hbm, ⟨19, _⟩ => ⟨S64x784, .i1⟩
  | .hbm, ⟨20, _⟩ => ⟨S_, .i32⟩
  | .hbm, ⟨21, _⟩ => ⟨S64x784, .i32⟩
  | .hbm, ⟨22, _⟩ => ⟨S64x784, .i32⟩
  | .hbm, ⟨23, _⟩ => ⟨S64x784, .i32⟩
  | .hbm, ⟨24, _⟩ => ⟨S64x784x1, .i32⟩
  | .hbm, ⟨25, _⟩ => ⟨S64x784x4096, .f32⟩
  | .hbm, ⟨26, _⟩ => ⟨S1x784x4096, .f32⟩
  | .hbm, ⟨27, _⟩ => ⟨S64x784x4096, .f32⟩
  | .hbm, ⟨28, _⟩ => ⟨S64x784x4096, .f32⟩
  | .hbm, ⟨29, _⟩ => ⟨S_, .f32⟩
  | .hbm, ⟨30, _⟩ => ⟨S64x4096, .f32⟩
  | .hbm, ⟨31, _⟩ => ⟨S_, .f32⟩
  | .hbm, ⟨32, _⟩ => ⟨S64x4096, .f32⟩
  | .hbm, ⟨33, _⟩ => ⟨S64x4096, .i1⟩
  | .hbm, ⟨34, _⟩ => ⟨S_, .f32⟩
  | .hbm, ⟨35, _⟩ => ⟨S_, .f32⟩
  | .hbm, ⟨36, _⟩ => ⟨S64x4096, .f32⟩
  | .hbm, ⟨37, _⟩ => ⟨S64x4096, .f32⟩
  | .hbm, ⟨38, _⟩ => ⟨S64x4096, .f32⟩
  | .hbm, ⟨39, _⟩ => ⟨S64x4096, .f32⟩
  | .hbm, ⟨40, _⟩ => ⟨S4096x10, .f32⟩
  | .hbm, ⟨41, _⟩ => ⟨S64x10, .f32⟩
  | _, _ => ⟨S64x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_c_0 : Ref sig .tc := ⟨.hbm, 9, rfl⟩
abbrev main_call1_v0 : Ref sig .tc := ⟨.hbm, 10, rfl⟩
abbrev main_call1_v1 : Ref sig .tc := ⟨.hbm, 11, rfl⟩
abbrev main_call1_v2 : Ref sig .tc := ⟨.hbm, 12, rfl⟩
abbrev main_call1_v3 : Ref sig .tc := ⟨.hbm, 13, rfl⟩
abbrev main_call1_v4 : Ref sig .tc := ⟨.hbm, 14, rfl⟩
abbrev main_v3 : Ref sig .tc := ⟨.hbm, 15, rfl⟩
abbrev main_v4 : Ref sig .tc := ⟨.hbm, 16, rfl⟩
abbrev main_c_1 : Ref sig .tc := ⟨.hbm, 17, rfl⟩
abbrev main_v5 : Ref sig .tc := ⟨.hbm, 18, rfl⟩
abbrev main_v6 : Ref sig .tc := ⟨.hbm, 19, rfl⟩
abbrev main_c_2 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_cst_4 : Ref sig .tc := ⟨.hbm, 31, rfl⟩
abbrev main_v16 : Ref sig .tc := ⟨.hbm, 32, rfl⟩
abbrev main_v17 : Ref sig .tc := ⟨.hbm, 33, rfl⟩
abbrev main_cst_5 : Ref sig .tc := ⟨.hbm, 34, rfl⟩
abbrev main_cst_6 : Ref sig .tc := ⟨.hbm, 35, rfl⟩
abbrev main_call2_v0 : Ref sig .tc := ⟨.hbm, 36, rfl⟩
abbrev main_call2_v1 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩

abbrev nD : Nat := 1
abbrev τ : Topo := Topo.v7x

variable {F : FTy → Type} [FloatOps F]

class Facts₀ : Prop where
  bcast_S_S64x784 : S_.BroadcastsInDim S64x784 (![] : Fin 0 → Fin S64x784.rank)
  bcast_S64x784_S64x784x1_0_1 : S64x784.BroadcastsInDim S64x784x1 (![0, 1] : Fin 2 → Fin S64x784x1.rank)
  bcast_S784x4096_S1x784x4096_1_2 : S784x4096.BroadcastsInDim S1x784x4096 (![1, 2] : Fin 2 → Fin S1x784x4096.rank)
  bcast_S1x784x4096_S64x784x4096_0_1_2 : S1x784x4096.BroadcastsInDim S64x784x4096 (![0, 1, 2] : Fin 3 → Fin S64x784x4096.rank)
  reducesTo_S64x784x4096_S64x4096_d1 : S64x784x4096.ReducesTo [1] S64x4096
  h_S_ : 0 < S_.numel
  bcast_S_S64x4096 : S_.BroadcastsInDim S64x4096 (![] : Fin 0 → Fin S64x4096.rank)
  transposes_S10x4096_S4096x10_1_0 : S10x4096.Transposes [1, 0] S4096x10
  gather_S100x4096_S64x784x1_S64x784x4096_2_0_n_n_0_2_14096_wf : GatherDims.WF S100x4096 S64x784x1 S64x784x4096 [2] [0] [] [0] [] 2 ![1, 4096]
  dot_S64x4096_S4096x10_S64x10_1_0_0_1_n_n_wf : DotDims.WF S64x4096 S4096x10 S64x10 [1] [0] [0] [1] [] []

variable [Facts₀]

def gather_S100x4096_S64x784x1_S64x784x4096_2_0_n_n_0_2_14096 : GatherDims S100x4096 S64x784x1 S64x784x4096 where
  offsetDims := [2]
  collapsedSliceDims := [0]
  operandBatchingDims := []
  startIndicesBatchingDims := []
  startIndexMap := [0]
  indexVectorDim := 2
  sliceSizes := ![1, 4096]
  wf := gather_S100x4096_S64x784x1_S64x784x4096_2_0_n_n_0_2_14096_wf
def dot_S64x4096_S4096x10_S64x10_1_0_0_1_n_n : DotDims S64x4096 S4096x10 S64x10 where
  lhsContracting := [1]
  rhsContracting := [0]
  lhsNonContracting := [0]
  rhsNonContracting := [1]
  lhsBatch := []
  rhsBatch := []
  wf := dot_S64x4096_S4096x10_S64x10_1_0_0_1_n_n_wf

class Facts : Prop extends Facts₀ where

variable [Facts]
-- ==== Proof.OutBlock.lean ====
import proofs.«102064_j22093311771138_1_alg».proof.Proof.Gen.KernelIdeal.Frame
import Idealize.ShloMosaic.Lib.Pipeline.Value
import Idealize.ShloMosaic.Lib.ValueIdx

/-!
  What one grid point's body leaves in the output block, as ONE function of the three input blocks.

  The body loops over the 64 samples; trip k loads row k of the level-index block, computes from it and from the two
  weight blocks a row of 512 signs, and stores that row at row k of the output block. So the output block at (r, d)
  is the trip payload of row r read at lane d, and the 64 stores tile the block.
-/

set_option maxRecDepth 16384

noncomputable section

namespace Cert.KernelIdeal.Enc

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable {F : FTy → Type} [FloatOps F]

/-- Row r of the level-index block as the 1×784 vector a trip loads. -/
def rowOf (x0 : Vec F S64x784 .i32) (r : Fin 64) : Vec F S1x784 .i32 := fun z => x0 (ix2 r (z 1))

/-- The output block as a function of the input blocks: at (r, d) the payload of row r, lane d. -/
def blockVal (x0 : Vec F S64x784 .i32) (x1 : Vec F S784x512 .f32) (x2 : Vec F S128x512 .bf16) : Vec F S64x512 .f32 :=
  fun y => k0_pay1 x2 x1 (rowOf x0 (y 0)) (ix2 (0 : Fin 1) (y 1))

theorem zero2 : (![0, 0] : Fin 2 → ℕ) = fun _ => 0 := by
  funext a; match a with | ⟨0, _⟩ => rfl | ⟨1, _⟩ => rfl

/-- A load of a whole block through the whole-shape rectangle reads the block. -/
theorem load_whole_x2 (arg3 : Memref sig .tc .vmem S128x512 .bf16) (harg3 : arg3.IsWhole) (x2 : Vec F S128x512 .bf16) :
    View.readAt (Elt F) arg3.view (Rect.unit (s := S128x512) ![0, 0] S128x512.size inb_S128x512_S128x512_0_0).toLoadRect (harg3.unread x2) = x2 := by
  rw [View.readAt_eq_ld, harg3.read_unread, View.ld_unit_zero (S := S128x512) zero2]

theorem load_whole_x1 (arg2 : Memref sig .tc .vmem S784x512 .f32) (harg2 : arg2.IsWhole) (x1 : Vec F S784x512 .f32) :
    View.readAt (Elt F) arg2.view (Rect.unit (s := S784x512) ![0, 0] S784x512.size inb_S784x512_S784x512_0_0).toLoadRect (harg2.unread x1) = x1 := by
  rw [View.readAt_eq_ld, harg2.read_unread, View.ld_unit_zero (S := S784x512) zero2]

/-- Trip k's load of the index block reads its row k. -/
theorem load_row (arg1 : Memref sig .tc .vmem S64x784 .i32) (harg1 : arg1.IsWhole) (x0 : Vec F S64x784 .i32)
    (k : Fin k0_t1_loop.trips) (r : Fin 64) (hr : r.val = k.val) :
    View.readAt (Elt F) arg1.view (Rect.unit (s := S64x784) (k0_off1 k) S1x784.size (k0_off1_inb k)).toLoadRect (harg1.unread x0)
      = rowOf x0 r := by
  rw [View.readAt_eq_ld, harg1.read_unread]
  funext z
  show x0 _ = x0 _
  refine congrArg x0 (funext fun a => Fin.ext ?_)
  have e0 : k0_off1 k 0 = k.val := congrFun (k0_off1_eq k) 0
  have e1 : k0_off1 k 1 = 0 := congrFun (k0_off1_eq k) 1
  match a with
  | ⟨0, _⟩ =>
    show k0_off1 k 0 + 1 * (z 0).val = r.val
    have hz : (z 0).val < 1 := (z 0).isLt
    omega
  | ⟨1, _⟩ =>
    show k0_off1 k 1 + 1 * (z 1).val = (z 1).val
    omega

/-- The one store of trip k: row k of the output block, the payload of the row the trip loaded. -/
theorem trip_piece (𝒱 : Variants) (c : Dev nD) (bd : Option 𝒱.V) (i : grid0.Coords) (arg1 : Memref sig .tc .vmem S64x784 .i32) (harg1 : arg1.IsWhole) (arg2 : Memref sig .tc .vmem S784x512 .f32) (harg2 : arg2.IsWhole) (arg3 : Memref sig .tc .vmem S128x512 .bf16) (harg3 : arg3.IsWhole) (arg4 : Memref sig .tc .vmem S64x512 .f32) (harg4 : arg4.IsWhole) (v0 : Vec F S128x512 .bf16) (v2 : Vec F S784x512 .f32) (X_arg1 : BufTy.Contents (Elt F) arg1.view.ty) (k : Fin k0_t1_loop.trips) :
    tripL_k0_t1 (F := F) 𝒱 c bd i arg1 harg1 arg2 harg2 arg3 harg3 arg4 harg4 v0 v2 X_arg1 k
      = [⟨Rect.unit (s := S64x512) (k0_off2 k) S1x512.size (k0_off2_inb k),
          k0_pay1 v0 v2 (View.readAt (Elt F) arg1.view (Rect.unit (s := S64x784) (k0_off1 k) S1x784.size (k0_off1_inb k)).toLoadRect X_arg1)⟩] := by
  unfold tripL_k0_t1 trip_k0_t1
  rfl

/-- The run's stores are the loop's, over the blocks as loaded. -/
theorem run_pieces (c : Dev nD) (i : grid0.Coords) (arg1 : Memref sig .tc .vmem S64x784 .i32) (harg1 : arg1.IsWhole) (arg2 : Memref sig .tc .vmem S784x512 .f32) (harg2 : arg2.IsWhole) (arg3 : Memref sig .tc .vmem S128x512 .bf16) (harg3 : arg3.IsWhole) (arg4 : Memref sig .tc .vmem S64x512 .f32) (harg4 : arg4.IsWhole)
    (x0 : Vec F S64x784 .i32) (x1 : Vec F S784x512 .f32) (x2 : Vec F S128x512 .bf16) :
    (kernelRun0_A c i arg1 harg1 arg2 harg2 arg3 harg3 arg4 harg4 x0 x1 x2).1
      = pb_k0_t1 (F := F) Variants.none c none i arg1 harg1 arg2 harg2 arg3 harg3 arg4 harg4 x2 x1 (harg1.unread x0) k0_t1_loop.trips := by
  unfold kernelRun0_A
  dsimp only
  rw [load_whole_x2, load_whole_x1]

/-- Every store of the first n trips writes the block function's values where it lands. -/
theorem pieces_agree (c : Dev nD) (i : grid0.Coords) (arg1 : Memref sig .tc .vmem S64x784 .i32) (harg1 : arg1.IsWhole) (arg2 : Memref sig .tc .vmem S784x512 .f32) (harg2 : arg2.IsWhole) (arg3 : Memref sig .tc .vmem S128x512 .bf16) (harg3 : arg3.IsWhole) (arg4 : Memref sig .tc .vmem S64x512 .f32) (harg4 : arg4.IsWhole)
    (x0 : Vec F S64x784 .i32) (x1 : Vec F S784x512 .f32) (x2 : Vec F S128x512 .bf16) :
    ∀ n : ℕ, n ≤ k0_t1_loop.trips →
      ∀ p ∈ pb_k0_t1 (F := F) Variants.none c none i arg1 harg1 arg2 harg2 arg3 harg3 arg4 harg4 x2 x1 (harg1.unread x0) n,
        ∀ x : p.1.shape.Idx, p.2 x = blockVal x0 x1 x2 (p.1.emb x)
  | 0, _, p, hp, _ => by rw [pb_k0_t1.eq_1] at hp; exact absurd hp List.not_mem_nil
  | n + 1, hn, p, hp, x => by
    have hk : n < k0_t1_loop.trips := hn
    have h64 : n < 64 := Nat.lt_of_lt_of_le hk k0_t1_abs.2.1
    rw [show n + 1 = (⟨n, hk⟩ : Fin k0_t1_loop.trips).val + 1 from rfl, pb_k0_t1_succ, trip_piece] at hp
    rcases List.mem_append.mp hp with h | h
    · rw [List.mem_singleton] at h
      subst h
      have e20 : k0_off2 (⟨n, hk⟩ : Fin k0_t1_loop.trips) 0 = n := congrFun (k0_off2_eq ⟨n, hk⟩) 0
      have e21 : k0_off2 (⟨n, hk⟩ : Fin k0_t1_loop.trips) 1 = 0 := congrFun (k0_off2_eq ⟨n, hk⟩) 1
      show k0_pay1 x2 x1 _ x = k0_pay1 x2 x1 (rowOf x0 _) (ix2 (0 : Fin 1) _)
      rw [load_row arg1 harg1 x0 ⟨n, hk⟩ ⟨n, h64⟩ rfl]
      have hx0 : (x 0).val < 1 := (x 0).isLt
      have er : ((Rect.unit (s := S64x512) (k0_off2 ⟨n, hk⟩) S1x512.size (k0_off2_inb ⟨n, hk⟩)).emb x 0) = (⟨n, h64⟩ : Fin 64) :=
        Fin.ext (by
          show k0_off2 ⟨n, hk⟩ 0 + 1 * (x 0).val = n
          omega)
      have ec : ((Rect.unit (s := S64x512) (k0_off2 ⟨n, hk⟩) S1x512.size (k0_off2_inb ⟨n, hk⟩)).emb x 1) = (x 1 : Fin 512) :=
        Fin.ext (by
          show k0_off2 ⟨n, hk⟩ 1 + 1 * (x 1).val = (x 1).val
          omega)
      rw [er, ec]
      refine congrArg (k0_pay1 x2 x1 (rowOf x0 ⟨n, h64⟩)) (funext fun a => Fin.ext ?_)
      match a with
      | ⟨0, _⟩ => show (x 0).val = 0; omega
      | ⟨1, _⟩ => rfl
    · exact pieces_agree c i arg1 harg1 arg2 harg2 arg3 harg3 arg4 harg4 x0 x1 x2 n (Nat.le_of_lt hk) p h x

/-- THE OUTPUT BLOCK: what the body leaves is the block function of its input blocks. -/
theorem out_eq (c : Dev nD) (i : grid0.Coords) (arg1 : Memref sig .tc .vmem S64x784 .i32) (harg1 : arg1.IsWhole) (arg2 : Memref sig .tc .vmem S784x512 .f32) (harg2 : arg2.IsWhole) (arg3 : Memref sig .tc .vmem S128x512 .bf16) (harg3 : arg3.IsWhole) (arg4 : Memref sig .tc .vmem S64x512 .f32) (harg4 : arg4.IsWhole)
    (x0 : Vec F S64x784 .i32) (x1 : Vec F S784x512 .f32) (x2 : Vec F S128x512 .bf16) :
    out0_A_3 c i arg1 harg1 arg2 harg2 arg3 harg3 arg4 harg4 x0 x1 x2 = blockVal x0 x1 x2 := by
  unfold out0_A_3
  rw [View.read_writes_eq_canon _ _ _ (cover0_A_3 c i arg1 harg1 arg2 harg2 arg3 harg3 arg4 harg4 x0 x1 x2)]
  funext y
  refine View.canon_apply_of_pieces (blockVal x0 x1 x2) _ ?_ y (cover0_A_3 c i arg1 harg1 arg2 harg2 arg3 harg3 arg4 harg4 x0 x1 x2 y)
  rw [run_pieces]
  exact pieces_agree c i arg1 harg1 arg2 harg2 arg3 harg3 arg4 harg4 x0 x1 x2 _ (Nat.le_refl _)

end Cert.KernelIdeal.Enc

end
-- ==== Proof.EncSpec.lean ====
import Idealize.ShloMosaic.PureOps.Ideal
import Idealize.ShloMosaic.PureOps.Ideal.Laws
import Idealize.ShloMosaic.Lib.ValueIdx

/-!
  The function both programs compute, stated over the four argument arrays with no program in sight.

  A feature value v in [0,1) is sent to its LEVEL: v * 99 rounded to the nearest integer (ties to even), clipped to
  [0, 99], read as a 32-bit integer. Whatever v is, the clip puts the level in 0 … 99, so it names a row of the
  100-row level table.

  For sample b and hypervector coordinate d the BUNDLE is the sum over the 784 features s of
  id_weight[s, d] * value_table[level(x[b, s]), d]; the ENCODING is its hard sign (+1 where the bundle is above zero,
  -1 elsewhere). The result of either program is the product of the encoding with the transposed classifier weight.
-/

noncomputable section

namespace Cert.HdEnc

open Idealize.ShloMosaic Idealize.ShloMosaic.ValueIdx

/-- The level of one feature value: round(v * 99) clipped to [0, 99], as a 32-bit integer. The constants are kept as the
    printed words (99.0 as its f32 pattern; 0 and 99 as the integers the clip converts). -/
def level (v : EReal) : BitVec 32 :=
  Ideal.fptosi 32 (min (((99#32 : BitVec 32).toInt : ℝ) : EReal) (max (((0#32 : BitVec 32).toInt : ℝ) : EReal)
    (Ideal.liftRound Ideal.roundHalfEven (v * Ideal.ofBits .f32 0x42C60000#32))))

/-- A value between 0 and 99 on the extended reals is a real number in that range. -/
theorem exists_real_of_clip (z : EReal) :
    ∃ r : ℝ, 0 ≤ r ∧ r ≤ 99 ∧ min (((99#32 : BitVec 32).toInt : ℝ) : EReal) (max (((0#32 : BitVec 32).toInt : ℝ) : EReal) z) = (r : EReal) := by
  have h99 : ((99#32 : BitVec 32).toInt : ℝ) = 99 := by norm_num [show (99#32 : BitVec 32).toInt = 99 by decide]
  have h0 : ((0#32 : BitVec 32).toInt : ℝ) = 0 := by norm_num [show (0#32 : BitVec 32).toInt = 0 by decide]
  rw [h99, h0]
  have key : ∀ y : EReal, ((0 : ℝ) : EReal) ≤ y → y ≤ ((99 : ℝ) : EReal) → ∃ r : ℝ, 0 ≤ r ∧ r ≤ 99 ∧ y = (r : EReal) := by
    intro y hlo hhi
    induction y using EReal.rec with
    | bot => exact absurd hlo (by simp)
    | top => exact absurd hhi (by simp)
    | coe r => exact ⟨r, by exact_mod_cast hlo, by exact_mod_cast hhi, rfl⟩
  exact key _ (le_min (by exact_mod_cast (by norm_num : (0 : ℝ) ≤ 99)) (le_max_left _ _)) (min_le_left _ _)

/-- The level is one of 0 … 99, whatever the feature value. -/
theorem level_spec (v : EReal) : ∃ n : ℕ, n < 100 ∧ level v = BitVec.ofNat 32 n := by
  obtain ⟨r, h0, h99, e⟩ := exists_real_of_clip (Ideal.liftRound Ideal.roundHalfEven (v * Ideal.ofBits .f32 0x42C60000#32))
  unfold level
  rw [e, Ideal.fptosi, Ideal.toIntClamped_coe, if_pos h0]
  have hf0 : 0 ≤ ⌊r⌋ := Int.floor_nonneg.mpr h0
  have hf99 : ⌊r⌋ ≤ 99 := by
    have : ⌊r⌋ ≤ ⌊(99 : ℝ)⌋ := Int.floor_le_floor h99
    simpa using this
  refine ⟨⌊r⌋.toNat, by omega, ?_⟩
  have hmin : min (((2 ^ (32 - 1) : ℕ) : ℤ) - 1) ⌊r⌋ = ⌊r⌋ := min_eq_right (by norm_num; omega)
  have hmax : max (-((2 ^ (32 - 1) : ℕ) : ℤ)) ⌊r⌋ = ⌊r⌋ := max_eq_right (by norm_num; omega)
  rw [hmin, hmax]
  apply BitVec.eq_of_toNat_eq
  rw [BitVec.toNat_ofInt, BitVec.toNat_ofNat]
  omega

theorem level_toNat_lt (v : EReal) : (level v).toNat < 100 := by
  obtain ⟨n, hn, e⟩ := level_spec v
  rw [e, BitVec.toNat_ofNat]; omega

theorem level_toInt (v : EReal) : (level v).toInt = ((level v).toNat : ℤ) := by
  have h := level_toNat_lt v
  rw [BitVec.toInt_eq_toNat_cond, if_pos (by omega)]

/-- Row n of the level table at coordinate d (zero past the table's 100 rows). -/
def tableRow (tab : (⟨2, ![100, 4096]⟩ : Shape).Idx → EReal) (n : ℕ) (d : Fin 4096) : EReal :=
  if h : n < 100 then tab (ix2 ⟨n, h⟩ d) else 0

/-- The bundle of sample b at coordinate d: the sum over the features of the id weight times the level row. -/
def bundle (x : (⟨2, ![64, 784]⟩ : Shape).Idx → EReal) (w : (⟨2, ![784, 4096]⟩ : Shape).Idx → EReal)
    (tab : (⟨2, ![100, 4096]⟩ : Shape).Idx → EReal) (b : Fin 64) (d : Fin 4096) : EReal :=
  ∑ s : Fin 784, w (ix2 s d) * tableRow tab (level (x (ix2 b s))).toNat d

/-- The hard sign: +1 above zero, -1 elsewhere (the constants as the printed f32 words). -/
def hardSign (v : EReal) : EReal :=
  Scalar.select (Ideal.cmp .ogt v (Ideal.ofBits .f32 0x00000000#32)) (Ideal.ofBits .f32 0x3F800000#32) (Ideal.ofBits .f32 0xBF800000#32)

/-- The encoding: the hard sign of the bundle, sample by sample and coordinate by coordinate. -/
def enc (x : (⟨2, ![64, 784]⟩ : Shape).Idx → EReal) (w : (⟨2, ![784, 4096]⟩ : Shape).Idx → EReal)
    (tab : (⟨2, ![100, 4096]⟩ : Shape).Idx → EReal) : (⟨2, ![64, 4096]⟩ : Shape).Idx → EReal :=
  fun i => hardSign (bundle x w tab (i 0) (i 1))

end Cert.HdEnc

end
-- ==== Proof.LibColumn.lean ====
/-
  Column forms of the layout operations, read at an index written with the coordinate constructors:
  what a row reduction with `keepdims` needs. A vector `[a]` cast to a column `[a, 1]` reads, at `(i, u)`,
  the vector at `i` (the row-major position of `(i, u)` in `[a, 1]` is `i`); a column `[a, 1]` broadcast
  to `[a, b]` reads, at `(p, c)`, the column at row `p` (the unit axis contributes coordinate `0`).
-/
import Idealize.ShloMosaic.Lib.ValueLayout

namespace Cert.LibColumn

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.OneHot.lean ====
import Idealize.ShloMosaic.PureOps.Ideal
import Idealize.ShloMosaic.PureOps.Float

/-!
  A one-hot weight picks one term of a sum.

  The weight of level l against an index word a is 1 when a is the word of l and 0 otherwise (the comparison's bit,
  widened and read as a number). Summed against any 128 values it leaves the value at a, when a is below 128.
-/

noncomputable section

namespace Cert.HdEnc

open Idealize.ShloMosaic

/-- The one-hot weight of level l for the index word a. -/
def oneHot (a : BitVec 32) (l : Fin 128) : EReal :=
  ((((IntOp.cmpi .eq a (BitVec.ofNat 32 l.val)).setWidth 32).toInt : ℝ) : EReal)

theorem oneHot_self (a : BitVec 32) (ha : a.toNat < 128) : oneHot a ⟨a.toNat, ha⟩ = 1 := by
  unfold oneHot IntOp.cmpi
  have e : (a == BitVec.ofNat 32 a.toNat) = true := by rw [BitVec.ofNat_toNat, BitVec.setWidth_eq]; simp
  simp only [e]
  have : ((BitVec.ofBool true).setWidth 32).toInt = 1 := by decide
  rw [this]; norm_num

theorem oneHot_of_ne (a : BitVec 32) (l : Fin 128) (h : l.val ≠ a.toNat) : oneHot a l = 0 := by
  unfold oneHot IntOp.cmpi
  have e : (a == BitVec.ofNat 32 l.val) = false := by
    rw [beq_eq_false_iff_ne]
    intro ha
    apply h
    rw [ha, BitVec.toNat_ofNat]
    have := l.isLt
    omega
  simp only [e]
  have : ((BitVec.ofBool false).setWidth 32).toInt = 0 := by decide
  rw [this]; norm_num

/-- The one-hot weights against any values leave the value at the index. -/
theorem oneHot_sum (a : BitVec 32) (ha : a.toNat < 128) (f : Fin 128 → EReal) :
    ∑ l : Fin 128, oneHot a l * f l = f ⟨a.toNat, ha⟩ := by
  rw [Finset.sum_eq_single (⟨a.toNat, ha⟩ : Fin 128)]
  · rw [oneHot_self, one_mul]
  · intro l _ hl
    rw [oneHot_of_ne a l (fun e => hl (Fin.ext e)), zero_mul]
  · intro h; exact absurd (Finset.mem_univ _) h

end Cert.HdEnc

end
-- ==== Proof.Payload.lean ====
import proofs.«102064_j22093311771138_1_alg».proof.Proof.Gen.KernelIdeal.Skeleton
import proofs.«102064_j22093311771138_1_alg».proof.Proof.EncSpec
import proofs.«102064_j22093311771138_1_alg».proof.Proof.LibColumn
import Idealize.ShloMosaic.Lib.Pipeline.Value
import Idealize.ShloMosaic.Lib.ValueIdx
import Idealize.ShloMosaic.Lib.ValueLayout
import Idealize.ShloMosaic.PureOps.Ideal.Laws
import proofs.«102064_j22093311771138_1_alg».proof.Proof.OneHot

/-!
  The trip payload at Ideal, read at one lane.

  From the index row v6 (784 level indices), the id-weight block v2 [784, 512] and the level-table block v0 [128, 512]
  the payload at lane d is the hard sign of  ∑ s (∑ l onehot(v6[s], l) * v0[l, d]) * v2[s, d]:
  the one-hot matrix times the table block is a matrix product into a zero accumulator, hence a plain sum over the 128
  levels; the product with the id weights is pointwise; the reduction over the feature axis is a plain sum.
-/

set_option maxRecDepth 16384

noncomputable section

namespace Cert.KernelIdeal.Enc

open Idealize.ShloMosaic Idealize.ShloMosaic.TcCoe Idealize.ShloMosaic.ValueIdx
open Idealize.SL.Sem
open Idealize.ShloMosaic.Pipeline (Dat Cfg Window)
open Cert.KernelIdeal Cert.KernelIdeal.Gen

open Cert.HdEnc

/-! The two operand indices of the [784,128] x [128,512] product at output (s, d) and contraction position k. -/

theorem lhs_mm_0 (i : S784x512.Idx) (q : dot_S784x128_S128x512_S784x512_1_0_0_1_n_n.contr.Idx) :
    (dot_S784x128_S128x512_S784x512_1_0_0_1_n_n.lhsIdx i q 0).val = (i 0).val := by
  unfold DotDims.lhsIdx
  rw [dif_neg (show ¬(0 : Fin S784x128.rank) ∈ dot_S784x128_S128x512_S784x512_1_0_0_1_n_n.lhsBatch by decide), dif_pos (show (0 : Fin S784x128.rank) ∈ dot_S784x128_S128x512_S784x512_1_0_0_1_n_n.lhsNonContracting by decide)]
  rfl
theorem lhs_mm_1 (i : S784x512.Idx) (q : dot_S784x128_S128x512_S784x512_1_0_0_1_n_n.contr.Idx) :
    (dot_S784x128_S128x512_S784x512_1_0_0_1_n_n.lhsIdx i q 1).val = (q ⟨0, by decide⟩).val :=
  dot_S784x128_S128x512_S784x512_1_0_0_1_n_n.lhsIdx_val_of_single rfl i q
theorem rhs_mm_0 (i : S784x512.Idx) (q : dot_S784x128_S128x512_S784x512_1_0_0_1_n_n.contr.Idx) :
    (dot_S784x128_S128x512_S784x512_1_0_0_1_n_n.rhsIdx i q 0).val = (q ⟨0, by decide⟩).val :=
  dot_S784x128_S128x512_S784x512_1_0_0_1_n_n.rhsIdx_val_of_single rfl i q
theorem rhs_mm_1 (i : S784x512.Idx) (q : dot_S784x128_S128x512_S784x512_1_0_0_1_n_n.contr.Idx) :
    (dot_S784x128_S128x512_S784x512_1_0_0_1_n_n.rhsIdx i q 1).val = (i 1).val := by
  unfold DotDims.rhsIdx
  rw [dif_neg (show ¬(1 : Fin S128x512.rank) ∈ dot_S784x128_S128x512_S784x512_1_0_0_1_n_n.rhsBatch by decide), dif_pos (show (1 : Fin S128x512.rank) ∈ dot_S784x128_S128x512_S784x512_1_0_0_1_n_n.rhsNonContracting by decide)]
  rfl

/-- The matrix product into the zero accumulator at (s, d): the sum over the 128 levels. -/
theorem matmul_at (lhs : FVec Ideal S784x128 .bf16) (rhs : FVec Ideal S128x512 .bf16) (s : Fin 784) (d : Fin 512) :
    matmul dot_S784x128_S128x512_S784x512_1_0_0_1_n_n none lhs rhs (constant S784x512 .f32 0x00000000#32) (ix2 s d)
      = ∑ l : Fin 128, lhs (ix2 s l) * rhs (ix2 l d) := by
  simp only [matmul]
  rw [Ideal.matmul_constant_zero_apply, ← Equiv.sum_comp (ValueIdx.contrEquiv1 dot_S784x128_S128x512_S784x512_1_0_0_1_n_n 128 rfl rfl).symm]
  refine Finset.sum_congr rfl fun k _ => ?_
  have hk := ValueIdx.contrEquiv1_symm_val dot_S784x128_S128x512_S784x512_1_0_0_1_n_n 128 rfl rfl k
  have el : dot_S784x128_S128x512_S784x512_1_0_0_1_n_n.lhsIdx (ix2 s d) ((ValueIdx.contrEquiv1 dot_S784x128_S128x512_S784x512_1_0_0_1_n_n 128 rfl rfl).symm k) = ix2 s k := funext fun a => Fin.ext (by
    match a with
    | ⟨0, _⟩ => exact lhs_mm_0 _ _
    | ⟨1, _⟩ => exact (lhs_mm_1 _ _).trans hk)
  have er : dot_S784x128_S128x512_S784x512_1_0_0_1_n_n.rhsIdx (ix2 s d) ((ValueIdx.contrEquiv1 dot_S784x128_S128x512_S784x512_1_0_0_1_n_n 128 rfl rfl).symm k) = ix2 k d := funext fun a => Fin.ext (by
    match a with
    | ⟨0, _⟩ => exact (rhs_mm_0 _ _).trans hk
    | ⟨1, _⟩ => exact rhs_mm_1 _ _)
  rw [el, er]

/-- The one-hot operand at (s, l): the weight of level l for the row's index s. -/
theorem onehot_at (v6 : Vec Ideal S1x784 .i32) (s : Fin 784) (l : Fin 128) :
    (truncf (F := Ideal) .bf16 (sitofp .f32 (extui 32 (cmpi .eq
        (broadcastTo S784x128 (shapeCast S784x1 (shapeCast S784 v6 shapeCasts_S1x784_S784) shapeCasts_S784_S784x1) broadcasts_S784x1_S784x128)
        (iota .tc S784x128 32 [1] iota_S784x128_d1_w32)) natLt_1_32)) bitsLt_bf16_f32) (ix2 s l)
      = oneHot (v6 (ix2 (0 : Fin 1) s)) l := by
  show ((((IntOp.cmpi .eq (broadcastTo S784x128 (shapeCast S784x1 (shapeCast S784 v6 shapeCasts_S1x784_S784) shapeCasts_S784_S784x1) broadcasts_S784x1_S784x128 (ix2 s l))
      (iota .tc S784x128 32 [1] iota_S784x128_d1_w32 (ix2 s l))).setWidth 32).toInt : ℝ) : EReal) = _
  rw [Cert.LibColumn.broadcastTo_a1_ab_apply, Cert.LibColumn.shapeCast_a_a1_apply, shapeCast_1a_a_apply, iota_single_apply]
  rfl

/-- THE PAYLOAD AT LANE d. -/
theorem pay_apply (v0 : Vec Ideal S128x512 .bf16) (v2 : Vec Ideal S784x512 .f32) (v6 : Vec Ideal S1x784 .i32) (d : Fin 512) :
    k0_pay1 (F := Ideal) v0 v2 v6 (ix2 (0 : Fin 1) d)
      = hardSign (∑ s : Fin 784, (∑ l : Fin 128, oneHot (v6 (ix2 (0 : Fin 1) s)) l * v0 (ix2 l d)) * v2 (ix2 s d)) := by
  unfold k0_pay1
  refine (shapeCast_a_1a_apply _ shapeCasts_S512_S1x512 (0 : Fin 1) d).trans ?_
  show hardSign _ = _
  refine (congrArg hardSign (Ideal.multiReduction_add_single (φ := .f32) _ _ reduces_S784x512_S512 _ _ (ix1 d))).trans ?_
  refine congrArg hardSign (Finset.sum_congr rfl fun s _ => ?_)
  have ei : reduces_S784x512_S512.lift (ix1 d) s = ix2 s d := funext fun a => Fin.ext (by
    match a with
    | ⟨0, _⟩ => rfl
    | ⟨1, _⟩ => rfl)
  rw [ei]
  show (matmul (F := Ideal) dot_S784x128_S128x512_S784x512_1_0_0_1_n_n none _ _ _ (ix2 s d)) * (v2 (ix2 s d)) = _
  refine congrArg (· * v2 (ix2 s d)) ?_
  refine (matmul_at _ _ s d).trans ?_
  refine Finset.sum_congr rfl fun l _ => ?_
  exact congrArg₂ (· * ·) (onehot_at v6 s l) (congrFun (shapeCast_self v0 shapeCasts_S128x512_S128x512) (ix2 l d))

end Cert.KernelIdeal.Enc

end
-- ==== Proof.Entry.lean ====
import proofs.«102064_j22093311771138_1_alg».proof.Proof.Gen.KernelIdeal.Frame
import proofs.«102064_j22093311771138_1_alg».proof.Proof.EncSpec
import Idealize.ShloMosaic.Lib.StableHlo.Run
import Idealize.ShloMosaic.Lib.KernelVsHost
import Idealize.ShloMosaic.Lib.ValueIdx

/-!
  What the region finds in its three input arrays.

  Before the region @main computes the level indices (scale by 99, round, clip, convert) and the level table padded
  with 28 zero rows to 128 rows (the change of float format is the identity on the extended reals). So the index
  array at (b, s) is the level of x[b, s], and the padded table at (l, d) is the table's row l where l < 100 and 0
  on the padding rows.
-/

set_option maxRecDepth 16384

noncomputable section

namespace Cert.KernelIdeal.Enc

open Idealize.ShloMosaic Idealize.ShloMosaic.TcCoe Idealize.ShloMosaic.ValueIdx
open Idealize.SL.Sem
open Idealize.ShloMosaic.Pipeline (Dat Cfg Window)
open Cert.KernelIdeal Cert.KernelIdeal.Gen

open Cert.HdEnc

variable (m : (ℓ : Loc nD τ sig) → Buf (Elt Ideal) ℓ)

/-- The index array as the host operations' term of the first argument. -/
theorem V_idx (c : Dev nD) :
    (V m c main_v4 : S64x784.Idx → BitVec 32)
      = fptosi 32 (minimumf (broadcastInDim S64x784 ![] bcast_S_S64x784 (sitofp (F := Ideal) .f32 (constantI S_ 32 99#32)))
          (maximumf (broadcastInDim S64x784 ![] bcast_S_S64x784 (sitofp (F := Ideal) .f32 (constantI S_ 32 0#32)))
            (Host.roundeven (mulf (m ((c : Thread nD τ).loc main_arg0)) (broadcastInDim S64x784 ![] bcast_S_S64x784 (constant (F := Ideal) S_ .f32 0x42C60000#32)))))) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

/-- The index array at (b, s) is the level of the feature value there. -/
theorem V_idx_apply (c : Dev nD) (i : S64x784.Idx) :
    (V m c main_v4 : S64x784.Idx → BitVec 32) i = level (m ((c : Thread nD τ).loc main_arg0) i) := by
  rw [V_idx]
  rfl

/-- The padded table as the host operations' term of the third argument. -/
theorem V_tab (c : Dev nD) :
    (V m c main_v6 : S128x4096.Idx → EReal)
      = truncf (F := Ideal) .bf16 (pad S128x4096 ![0, 0] ![28, 0] ![0, 0] (m ((c : Thread nD τ).loc main_arg2))
          (sitofp (F := Ideal) .f32 (constantI S_ 32 0#32)) pads_S100x4096_S128x4096_0280_000 h_S_) bitsLt_bf16_f32 := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

/-- The padded table at (l, d): row l of the table below row 100, zero on the padding rows. -/
theorem V_tab_apply (c : Dev nD) (l : Fin 128) (d : Fin 4096) :
    (V m c main_v6 : S128x4096.Idx → EReal) (ix2 l d) = tableRow (m ((c : Thread nD τ).loc main_arg2)) l.val d := by
  rw [V_tab]
  show pad S128x4096 ![0, 0] ![28, 0] ![0, 0] (m ((c : Thread nD τ).loc main_arg2))
      (sitofp (F := Ideal) .f32 (constantI S_ 32 0#32)) pads_S100x4096_S128x4096_0280_000 h_S_ (ix2 l d) = _
  unfold tableRow
  by_cases hl : l.val < 100
  · rw [dif_pos hl]
    refine pad_apply_of_inside _ _ _ _ _ _ _ (ix2 l d) (ix2 ⟨l.val, hl⟩ d) fun a => ?_
    match a with
    | ⟨0, _⟩ => show l.val = 0 + l.val * (0 + 1); omega
    | ⟨1, _⟩ => show d.val = 0 + d.val * (0 + 1); omega
  · rw [dif_neg hl]
    refine (pad_apply_of_not_inside _ _ _ _ _ _ _ (ix2 l d) (0 : Fin 2) ?_).trans ?_
    · show ¬(0 ≤ l.val ∧ (l.val - 0) % (0 + 1) = 0 ∧ (l.val - 0) / (0 + 1) < 100)
      intro h; apply hl; have := h.2.2; simpa using this
    · show (((0#32 : BitVec 32).toInt : ℝ) : EReal) = 0
      norm_num [show (0#32 : BitVec 32).toInt = 0 by decide]

end Cert.KernelIdeal.Enc

end
-- ==== Proof.Final.lean ====
import proofs.«102064_j22093311771138_1_alg».proof.Proof.OutBlock
import proofs.«102064_j22093311771138_1_alg».proof.Proof.Payload
import proofs.«102064_j22093311771138_1_alg».proof.Proof.Entry

/-!
  The encoding array after the region.

  Grid point t (of 8) handles the 512 hypervector coordinates 512·t … 512·t + 511: its index block is the whole
  index array, its id-weight and level-table blocks are those columns of their arrays, and its output block is
  those columns of the encoding. At (r, d) of the output block the one-hot weights of level(x[r, s]) against the
  table block's column leave the table's row level(x[r, s]) at coordinate 512·t + d (the level is below 100, inside
  the 128 padded rows), so the block's entry is the encoding at (r, 512·t + d). The 8 blocks tile the array.
-/

set_option maxRecDepth 16384

noncomputable section

namespace Cert.KernelIdeal.Enc

open Idealize.ShloMosaic Idealize.ShloMosaic.TcCoe Idealize.ShloMosaic.ValueIdx
open Idealize.SL.Sem
open Idealize.ShloMosaic.Pipeline (Dat Cfg Window)
open Cert.KernelIdeal Cert.KernelIdeal.Gen

open Cert.HdEnc

variable (m : (ℓ : Loc nD τ sig) → Buf (Elt Ideal) ℓ)

/-- The three input blocks of point t under their literal types. -/
abbrev idxBlk (c : Dev nD) (t : Fin cfg0.N) : Vec Ideal S64x784 .i32 := iblk m c 0 t
abbrev wBlk (c : Dev nD) (t : Fin cfg0.N) : Vec Ideal S784x512 .f32 := iblk m c 1 t
abbrev tabBlk (c : Dev nD) (t : Fin cfg0.N) : Vec Ideal S128x512 .bf16 := iblk m c 2 t

/-- The block index of every window at every grid point: the index block does not move; the other three move along
    the coordinate axis with the point. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

theorem col_lt (t : Fin cfg0.N) (d : Fin 512) : 512 * t.val + d.val < 4096 := by
  have := t.isLt; have hN : cfg0.N = 8 := N_0; omega

/-- The index block at (r, s): the level of x[r, s]. -/
theorem idxBlk_apply (c : Dev nD) (t : Fin cfg0.N) (r : Fin 64) (s : Fin 784) :
    idxBlk m c t (ix2 r s) = level (m ((c : Thread nD τ).loc main_arg0) (ix2 r s)) := by
  obtain ⟨e0, e1, -⟩ := idx_facts t
  show (V m c main_v4 : S64x784.Idx → BitVec 32) (((cfg0.win 0).blk t).view.emb (ix2 r s)) = _
  rw [V_idx_apply]
  refine congrArg (fun i => level (m ((c : Thread nD τ).loc main_arg0) i)) (funext fun a => Fin.ext ?_)
  match a with
  | ⟨0, _⟩ => show win0_0.index t (0 : Fin 2) * 64 + 1 * r.val = r.val; omega
  | ⟨1, _⟩ => show win0_0.index t (1 : Fin 2) * 784 + 1 * s.val = s.val; omega

/-- The id-weight block at (s, d): the id weight at (s, 512·t + d). -/
theorem wBlk_apply (c : Dev nD) (t : Fin cfg0.N) (s : Fin 784) (d : Fin 512) :
    wBlk m c t (ix2 s d) = m ((c : Thread nD τ).loc main_arg1) (ix2 s ⟨512 * t.val + d.val, col_lt t d⟩) := by
  obtain ⟨-, -, e0, e1, -⟩ := idx_facts t
  show V m c main_arg1 (((cfg0.win 1).blk t).view.emb (ix2 s d)) = _
  rw [V_main_arg1]
  refine congrArg (m ((c : Thread nD τ).loc main_arg1)) (funext fun a => Fin.ext ?_)
  match a with
  | ⟨0, _⟩ => show win0_1.index t (0 : Fin 2) * 784 + 1 * s.val = s.val; omega
  | ⟨1, _⟩ => show win0_1.index t (1 : Fin 2) * 512 + 1 * d.val = 512 * t.val + d.val; omega

/-- The level-table block at (l, d): the table's row l at coordinate 512·t + d (zero on the padding rows). -/
theorem tabBlk_apply (c : Dev nD) (t : Fin cfg0.N) (l : Fin 128) (d : Fin 512) :
    tabBlk m c t (ix2 l d) = tableRow (m ((c : Thread nD τ).loc main_arg2)) l.val ⟨512 * t.val + d.val, col_lt t d⟩ := by
  obtain ⟨-, -, -, -, e0, e1, -⟩ := idx_facts t
  show (V m c main_v6 : S128x4096.Idx → EReal) (((cfg0.win 2).blk t).view.emb (ix2 l d)) = _
  rw [← V_tab_apply m c l ⟨512 * t.val + d.val, col_lt t d⟩]
  refine congrArg (V m c main_v6 : S128x4096.Idx → EReal) (funext fun a => Fin.ext ?_)
  match a with
  | ⟨0, _⟩ => show win0_2.index t (0 : Fin 2) * 128 + 1 * l.val = l.val; omega
  | ⟨1, _⟩ => show win0_2.index t (1 : Fin 2) * 512 + 1 * d.val = 512 * t.val + d.val; omega

/-- The encoding of the argument arrays as core c was launched with them. -/
abbrev encOf (c : Dev nD) : S64x4096.Idx → EReal :=
  enc (m ((c : Thread nD τ).loc main_arg0)) (m ((c : Thread nD τ).loc main_arg1)) (m ((c : Thread nD τ).loc main_arg2))

/-- WHAT POINT t LEAVES in its output block at (r, d): the encoding at (r, 512·t + d). -/
theorem outsAt_apply (c : Dev nD) (t : Fin cfg0.N) (r : Fin 64) (d : Fin 512) :
    (outsAt0 m c t : S64x512.Idx → EReal) (ix2 r d) = encOf m c (ix2 r ⟨512 * t.val + d.val, col_lt t d⟩) := by
  unfold outsAt0
  rw [out_eq]
  show k0_pay1 (F := Ideal) (tabBlk m c t) (wBlk m c t) (rowOf (idxBlk m c t) r) (ix2 (0 : Fin 1) d) = _
  rw [pay_apply]
  show hardSign _ = hardSign (bundle _ _ _ r ⟨512 * t.val + d.val, col_lt t d⟩)
  unfold bundle
  refine congrArg hardSign (Finset.sum_congr rfl fun s _ => ?_)
  have ha : rowOf (idxBlk m c t) r (ix2 (0 : Fin 1) s) = level (m ((c : Thread nD τ).loc main_arg0) (ix2 r s)) :=
    idxBlk_apply m c t r s
  rw [ha, wBlk_apply]
  have hlt := level_toNat_lt (m ((c : Thread nD τ).loc main_arg0) (ix2 r s))
  rw [oneHot_sum _ (Nat.lt_trans hlt (by norm_num)) (fun l => tabBlk m c t (ix2 l d)), tabBlk_apply]
  exact mul_comm _ _

/-- WHAT POINT t WRITES BACK is block t of the encoding. -/
theorem flushed_eq (c : Dev nD) (t : Fin cfg0.N) :
    (dats m 0 c).flushed 3 t = ((cfg0.win 3).blk t).view.read (Elt Ideal) (encOf m c) := by
  show (cfg0.win 3).cut (grid0.coords t) ((dats m 0 c).after 3 t) = _
  rw [after0_3]
  obtain ⟨-, -, -, -, -, -, e0, e1⟩ := idx_facts t
  funext j
  show (outsAt0 m c t : S64x512.Idx → EReal) j = encOf m c (((cfg0.win 3).blk t).view.emb j)
  obtain ⟨r, d, rfl⟩ : ∃ (r : Fin 64) (d : Fin 512), j = ix2 r d := ⟨j 0, j 1, eq_ix2 j⟩
  rw [outsAt_apply]
  refine congrArg (encOf m c) (funext fun a => Fin.ext ?_)
  match a with
  | ⟨0, _⟩ => show r.val = win0_3.index t (0 : Fin 2) * 64 + 1 * r.val; omega
  | ⟨1, _⟩ => show 512 * t.val + d.val = win0_3.index t (1 : Fin 2) * 512 + 1 * d.val; omega

/-- An index of the encoding array is in point t's block iff each coordinate is in the block's range on its axis. -/
theorem mem_blk (t : Fin cfg0.N) (i : S64x4096.Idx) :
    i ∈ ((cfg0.win 3).blk t).view.set ↔ ∀ a : Fin 2, win0_3.index t a * S64x512.size a ≤ (i a).val ∧ (i a).val < win0_3.index t a * S64x512.size a + S64x512.size a := by
  show i ∈ ((View.whole main_v7).slice (win0_3.rect t)).set ↔ _
  rw [View.set_slice_whole, Rect.mem_set_unit]
  exact Iff.rfl

/-- Every index of the encoding array is in the block of the point that handles its column. -/
theorem cover (i : S64x4096.Idx) : ∃ t : Fin cfg0.N, (cfg0.win 3).flush t = true ∧ i ∈ ((cfg0.win 3).blk t).view.set := by
  have hi0 : (i 0).val < 64 := (i 0).isLt
  have hi1 : (i 1).val < 4096 := (i 1).isLt
  have hN : cfg0.N = 8 := N_0
  have hN' : grid0.N = 8 := N_0
  refine ⟨⟨(i 1).val / 512, by omega⟩, flush0_3 _, ?_⟩
  rw [mem_blk]
  obtain ⟨-, -, -, -, -, -, e0, e1⟩ := idx_facts ⟨(i 1).val / 512, by omega⟩
  intro a
  match a with
  | ⟨0, _⟩ =>
    show win0_3.index _ (0 : Fin 2) * 64 ≤ (i 0).val ∧ (i 0).val < win0_3.index _ (0 : Fin 2) * 64 + 64
    omega
  | ⟨1, _⟩ =>
    show win0_3.index _ (1 : Fin 2) * 512 ≤ (i 1).val ∧ (i 1).val < win0_3.index _ (1 : Fin 2) * 512 + 512
    have e1' : win0_3.index ⟨(i 1).val / 512, by omega⟩ (1 : Fin 2) = (i 1).val / 512 := e1
    omega

/-- THE ENCODING ARRAY after the region. -/
theorem final (c : Dev nD) : (dats m 0 c).arrAt 3 cfg0.N = encOf m c :=
  (dats m 0 c).arrAt_eq_of_cover 3 (encOf m c) (fun t _ => flushed_eq m c t) (cover)

end Cert.KernelIdeal.Enc

end
-- ==== Proof.Tail.lean ====
import proofs.«102064_j22093311771138_1_alg».proof.Proof.Final
import Idealize.ShloMosaic.Lib.StableHlo.Run

/-!
  The kernel program's result.

  After the region @main transposes the classifier weight and multiplies the encoding array by it. The region leaves
  the encoding array holding the encoding of the argument arrays, and the classifier weight is as launched, so the
  result is that product; the four argument arrays end unchanged.
-/

set_option maxRecDepth 16384

noncomputable section

namespace Cert.KernelIdeal.Enc

open Idealize.ShloMosaic Idealize.ShloMosaic.TcCoe Idealize.ShloMosaic.ValueIdx
open Idealize.SL.Sem
open Idealize.ShloMosaic.Pipeline (Dat Cfg Window)
open Cert.KernelIdeal Cert.KernelIdeal.Gen

open Cert.HdEnc

variable (m : (ℓ : Loc nD τ sig) → Buf (Elt Ideal) ℓ) (ρ : Dev nD → PrngReg)

/-- The result: the encoding times the transposed classifier weight. -/
def resultOf (c : Dev nD) : S64x10.Idx → EReal :=
  Host.dotGeneral (F := Ideal) (φ₁ := .f32) (φ₂ := .f32) dot_S64x4096_S4096x10_S64x10_1_0_0_1_n_n (some .fp32) (encOf m c)
    (transpose S4096x10 [1, 0] (m ((c : Thread nD τ).loc main_arg3) : S10x4096.Idx → EReal) transposes_S10x4096_S4096x10_1_0)

/-- What the lines after the region leave in the result buffer. -/
theorem tail_result (c : Dev nD) :
    Pipeline.afterTail₀ cfgs (dats m) 0 (V0 m) [hostOps1] c main_v9 = resultOf m c := by
  unfold Pipeline.afterTail₀
  show StableHlo.after hostOps1 _ (Proc.devRef .tc main_v9) = _
  after_results
  have e7 : Pipeline.withArrays (cfgs 0).spec c (V0 m c) (fun w => (dats m 0 c).arrAt w (cfgs 0).N) (Proc.devRef .tc main_v7) = encOf m c :=
    (Pipeline.withArrays_arr spec0 launch0.win.arr_inj c _ _ 3).trans (final m c)
  have e3 : Pipeline.withArrays (cfgs 0).spec c (V0 m c) (fun w => (dats m 0 c).arrAt w (cfgs 0).N) (Proc.devRef .tc main_arg3) = m ((c : Thread nD τ).loc main_arg3) :=
    (Pipeline.withArrays_of_ne _ c (V0 m c) _ main_arg3 (by exact (by decide : ∀ w, Pipeline.arrRef spec0 w ≠ main_arg3))).trans (V_main_arg3 m c)
  rw [e7, e3]
  rfl

/-- THE RUN: every weakly fair execution terminates with the result buffer at the product and the arguments unchanged. -/
theorem run : θ_run defs (onTc (τ := τ) (main (F := Ideal))) ⟨m, fun _ => 0, ρ⟩ (fun r => ∀ c : Dev nD,
      r.2.mem ((c.tc : Thread nD τ).loc main_v9) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v9 (Pipeline.mem_restRefs_of main_v9 (by decide) (by decide))).trans (tail_result m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Enc

end
-- ==== Proof.RefEnc.lean ====
import proofs.«102064_j22093311771138_1_alg».proof.Proof.Gen.ReferenceIdeal.Read
import proofs.«102064_j22093311771138_1_alg».proof.Proof.EncSpec
import Idealize.ShloMosaic.Lib.ValueIdx
import Idealize.ShloMosaic.PureOps.Ideal.Laws

noncomputable section

namespace Cert.ReferenceIdeal.RefEnc

open Cert.ReferenceIdeal Cert.ReferenceIdeal.Gen Cert.ReferenceIdeal.Read Idealize.ShloMosaic Idealize.ShloMosaic.ValueIdx

local notation "GD" => gather_S100x4096_S64x784x1_S64x784x4096_2_0_n_n_0_2_14096

/-- The integer index stage at feature position `j` is the level of the feature value there: scale by 99, round to
    even, clip to [0, 99], convert. -/
theorem v4_eq (x0 : (⟨S64x784, .f32⟩ : BufTy).Contents (Elt Ideal)) (j : S64x784.Idx) :
    val_main_v4 (F := Ideal) x0 j = Cert.HdEnc.level (x0 j) := by
  rw [val_main_v4_apply, val_main_v3_apply, val_main_call1_v4_apply, val_main_call1_v3_apply, val_main_c_0_apply,
    val_main_call1_v2_apply, val_main_call1_v1_apply, val_main_call1_v0_apply, val_main_c_apply, val_main_v2_apply,
    val_main_v1_apply, val_main_v0_apply, val_main_cst_apply]
  rfl

/-- A level is never negative as a signed word: it is one of 0 … 99. -/
theorem level_not_neg (v : EReal) : IntOp.cmpi .slt (Cert.HdEnc.level v) 0#32 = 0#1 := by
  have h := Cert.HdEnc.level_toInt v
  have hs : (Cert.HdEnc.level v).slt 0#32 = false := by
    rw [BitVec.slt, h]
    simp
  show BitVec.ofBool ((Cert.HdEnc.level v).slt 0#32) = 0#1
  rw [hs]; rfl

/-- The wrap of negative indices (add 100 where the index is below zero) leaves a level as it is. -/
theorem v9_eq (x0 : (⟨S64x784, .f32⟩ : BufTy).Contents (Elt Ideal)) (j : S64x784.Idx) :
    val_main_v9 (F := Ideal) x0 j = Cert.HdEnc.level (x0 j) := by
  rw [val_main_v9_apply, val_main_v6_apply, val_main_v5_apply, val_main_c_1_apply, v4_eq, level_not_neg, select_zero]

/-- The start indices `[b, s, 0]` hold the level of feature `s` of sample `b`. -/
theorem v10_eq (x0 : (⟨S64x784, .f32⟩ : BufTy).Contents (Elt Ideal)) (b : Fin 64) (s : Fin 784) :
    val_main_v10 (F := Ideal) x0 (ix3 b s 0) = Cert.HdEnc.level (x0 (ix2 b s)) := by
  rw [val_main_v10_apply, v9_eq]
  have e : idx_main_v10 (ix3 b s 0) = ix2 b s :=
    funext fun a => Fin.ext (by match a with | ⟨0, _⟩ => rfl | ⟨1, _⟩ => rfl)
  rw [e]

/-- The gather's operand row for result index `(b, s, d)`: the table's row axis is the one the start index names and
    is collapsed, so the row is the start index `idx[b, s, 0]` read signed and clamped into [0, 99]. -/
theorem gather_idx0 (idx : S64x784x1.Idx → BitVec 32) (b : Fin 64) (s : Fin 784) (d : Fin 4096) :
    ((GD).operandIdx (ix3 b s d) idx 0).val = min (idx (ix3 b s 0)).toInt.toNat 99 := by
  show (GD).start (ix3 b s d) idx 0 + (GD).batchCoord (ix3 b s d) 0 + (GD).offCoord (ix3 b s d) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (GD).startIndexMap from List.mem_singleton.mpr rfl)]
  have hsi : (GD).siIdx (ix3 b s d) ⟨List.idxOf (0 : Fin 2) (GD).startIndexMap,
      List.idxOf_lt_length_iff.2 (List.mem_singleton.mpr rfl)⟩ = ix3 b s 0 := by
    funext a; refine Fin.ext ?_
    match a with
    | ⟨0, _⟩ => rfl
    | ⟨1, _⟩ => rfl
    | ⟨2, _⟩ => rfl
  rw [hsi]
  rfl

/-- The gather's operand column for result index `(b, s, d)`: the column axis is the one kept axis, read at the
    offset coordinate `d` with no start and no batching part. -/
theorem gather_idx1 (idx : S64x784x1.Idx → BitVec 32) (b : Fin 64) (s : Fin 784) (d : Fin 4096) :
    ((GD).operandIdx (ix3 b s d) idx 1).val = d.val := by
  show (GD).start (ix3 b s d) idx 1 + (GD).batchCoord (ix3 b s d) 1 + (GD).offCoord (ix3 b s d) 1 = _
  rw [GatherDims.batchCoord_eq_zero _ _ _ List.not_mem_nil]
  have hst : (GD).start (ix3 b s d) idx 1 = 0 := by
    unfold GatherDims.start
    rw [dif_neg (show ¬ (1 : Fin 2) ∈ (GD).startIndexMap by decide)]
  rw [hst]
  unfold GatherDims.offCoord
  rw [dif_pos (show (1 : Fin 2) ∈ (GD).sKept by decide)]
  simp only [Nat.zero_add]
  rfl

/-- The gathered array at `(b, s, d)` is the level table's row `level(x[b, s])` at coordinate `d`: the level is
    below 100, so the clamp into [0, 99] does nothing. -/
theorem v11_eq (x0 : (⟨S64x784, .f32⟩ : BufTy).Contents (Elt Ideal)) (x2 : (⟨S100x4096, .f32⟩ : BufTy).Contents (Elt Ideal))
    (b : Fin 64) (s : Fin 784) (d : Fin 4096) :
    val_main_v11 (F := Ideal) x0 x2 (ix3 b s d)
      = Cert.HdEnc.tableRow x2 (Cert.HdEnc.level (x0 (ix2 b s))).toNat d := by
  have hl := Cert.HdEnc.level_toNat_lt (x0 (ix2 b s))
  unfold Cert.HdEnc.tableRow
  rw [dif_pos hl]
  show x2 ((GD).operandIdx (ix3 b s d) (val_main_v10 (F := Ideal) x0)) = _
  congr 1
  funext a; refine Fin.ext ?_
  match a with
  | ⟨0, _⟩ =>
    show ((GD).operandIdx (ix3 b s d) (val_main_v10 (F := Ideal) x0) 0).val = _
    rw [gather_idx0, v10_eq, Cert.HdEnc.level_toInt, Int.toNat_natCast]
    exact min_eq_left (by omega)
  | ⟨1, _⟩ => exact gather_idx1 _ b s d

/-- The product stage at `(b, s, d)`: the id weight `w[s, d]` (broadcast over the samples) times the level row. -/
theorem v14_eq (x0 : (⟨S64x784, .f32⟩ : BufTy).Contents (Elt Ideal)) (x1 : (⟨S784x4096, .f32⟩ : BufTy).Contents (Elt Ideal))
    (x2 : (⟨S100x4096, .f32⟩ : BufTy).Contents (Elt Ideal)) (b : Fin 64) (s : Fin 784) (d : Fin 4096) :
    val_main_v14 (F := Ideal) x0 x1 x2 (ix3 b s d)
      = x1 (ix2 s d) * Cert.HdEnc.tableRow x2 (Cert.HdEnc.level (x0 (ix2 b s))).toNat d := by
  rw [val_main_v14_apply, Ideal.mulf_def, v11_eq, val_main_v13_apply, val_main_v12_apply]
  have e : idx_main_v12 (idx_main_v13 (ix3 b s d)) = ix2 s d :=
    funext fun a => Fin.ext (by match a with | ⟨0, _⟩ => rfl | ⟨1, _⟩ => rfl)
  rw [e]

/-- The sum over the feature axis (from the initial value 0) is the bundle, term by term. -/
theorem v15_eq (x0 : (⟨S64x784, .f32⟩ : BufTy).Contents (Elt Ideal)) (x1 : (⟨S784x4096, .f32⟩ : BufTy).Contents (Elt Ideal))
    (x2 : (⟨S100x4096, .f32⟩ : BufTy).Contents (Elt Ideal)) (b : Fin 64) (d : Fin 4096) :
    val_main_v15 (F := Ideal) x0 x1 x2 (ix2 b d) = Cert.HdEnc.bundle x0 x1 x2 b d := by
  rw [val_main_v15_apply, val_main_cst_3_apply, Ideal.ofBits_def, Ideal.ofBits_zero_f32, zero_add]
  unfold Cert.HdEnc.bundle
  refine Finset.sum_congr rfl fun k _ => ?_
  have e : idx_main_v15 (ix2 b d) k = ix3 b k d :=
    funext fun a => Fin.ext (by match a with | ⟨0, _⟩ => rfl | ⟨1, _⟩ => rfl | ⟨2, _⟩ => rfl)
  rw [e, v14_eq]

/-- The reference's sign array (the stage before the transposed product) is the encoding of the specification. -/
theorem enc_eq (x0 : (⟨S64x784, .f32⟩ : BufTy).Contents (Elt Ideal)) (x1 : (⟨S784x4096, .f32⟩ : BufTy).Contents (Elt Ideal))
    (x2 : (⟨S100x4096, .f32⟩ : BufTy).Contents (Elt Ideal)) :
    val_main_v19 (F := Ideal) x0 x1 x2 = Cert.HdEnc.enc x0 x1 x2 := by
  funext i
  obtain ⟨b, d, rfl⟩ : ∃ b d, i = ix2 b d := ⟨i 0, i 1, eq_ix2 i⟩
  -- the comparison with 0 and the choice between 1.0 and -1.0 are the hard sign of the bundle
  rw [val_main_v19_apply, val_main_v18_apply, val_main_v17_apply, val_main_v16_apply, val_main_cst_4_apply,
    val_main_call2_v0_apply, val_main_cst_5_apply, val_main_call2_v1_apply, val_main_cst_6_apply, v15_eq]
  rfl

end Cert.ReferenceIdeal.RefEnc

end
-- ==== Proof.lean ====
/-
  The kernel against its reference: a hyperdimensional encoding followed by a linear classifier.

  Both programs send each feature value x[b, s] to its level, round(x * 99) clipped to [0, 99], and from the level
  table take the row of that level; they multiply it coordinate by coordinate with the feature's id hypervector, sum over
  the 784 features, take the hard sign (+1 above zero, -1 elsewhere), and multiply the resulting [64, 4096] array by the
  transposed classifier weight.

  The reference gathers the level's row from the table directly (its wrap of negative indices and the gather's clamp do
  nothing, the level being one of 0 … 99). The kernel pads the table to 128 rows with zeros and, per grid point (a
  tile of 512 coordinates) and per sample, multiplies the one-hot matrix of the 784 levels against the table tile: the
  product into a zero accumulator is the sum over the 128 rows of weights of which exactly one is 1, so it leaves the
  level's row; the padding rows are never selected. The product with the id weights commutes, the reduction over
  the feature axis is the same sum, and the sign is the same comparison and selection. The final products are one
  function of the same two arrays on the extended reals, whatever precision either names.

  No ideal rule rewrote the kernel, so the idealization claim is trivial; the two kernel frames are the generated ones and the
  reference's frame is its generated run with the result dropped.
-/
import proofs.«102064_j22093311771138_1_alg».proof.Defs
import proofs.«102064_j22093311771138_1_alg».proof.Proof.Gen.Kernel
import proofs.«102064_j22093311771138_1_alg».proof.Proof.Gen.Kernel.Frame
import proofs.«102064_j22093311771138_1_alg».proof.Proof.Gen.KernelIdeal
import proofs.«102064_j22093311771138_1_alg».proof.Proof.Gen.KernelIdeal.Frame
import proofs.«102064_j22093311771138_1_alg».proof.Proof.Gen.ReferenceIdeal
import proofs.«102064_j22093311771138_1_alg».proof.Proof.Gen.ReferenceIdeal.Run
import proofs.«102064_j22093311771138_1_alg».proof.Proof.Gen.ReferenceIdeal.Read
import proofs.«102064_j22093311771138_1_alg».proof.Proof.Gen.Pre_finite_inputs
import proofs.«102064_j22093311771138_1_alg».proof.Proof.Tail
import proofs.«102064_j22093311771138_1_alg».proof.Proof.RefEnc
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- On arguments that agree both programs end with the encoding times the transposed classifier weight: the kernel by its
    run (the encoding array tile by tile, then the product), the reference by its run read stage by stage. -/
theorem algebraic : Cert.algebraic_KernelIdeal_ReferenceIdeal := by
  intro m ρ m' ρ' _ hagree
  refine ⟨fun c => Cert.KernelIdeal.Enc.resultOf m c, Cert.KernelIdeal.Enc.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq]
  unfold Cert.ReferenceIdeal.Read.val_main_v21
  rw [Cert.ReferenceIdeal.RefEnc.enc_eq, (hagree c).1, (hagree c).2.1, (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
